-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S2048x2048 : Shape := ⟨2, ![2048, 2048]⟩
abbrev S2048 : Shape := ⟨1, ![2048]⟩
abbrev S2048x512 : Shape := ⟨2, ![2048, 512]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S512 .f32) (main_arg5 : FVec F S512x64 .f32) (main_arg6 : FVec F S64 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x64 .f32 := Host.absf main_arg5
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x8192x2048 .f32) (main_arg1 : FVec F S2048x2048 .f32) (main_arg2 : FVec F S2048 .f32) (main_arg3 : FVec F S2048x512 .f32) (main_arg4 : FVec F S512 .f32) (main_arg5 : FVec F S512x64 .f32) (main_arg6 : FVec F S64 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_v13 main_v16
-- ==== Kernel.lean ====
abbrev S4x8192x2048 : Shape := ⟨3, ![4, 8192, 2048]⟩
abbrev S2048x2048 : Shape := ⟨2, ![2048, 2048]⟩
abbrev S2048 : Shape := ⟨1, ![2048]⟩
abbrev S2048x512 : Shape := ⟨2, ![2048, 512]⟩
abbrev S512 : Shape := ⟨1, ![512]⟩
abbrev S512x64 : Shape := ⟨2, ![512, 64]⟩
abbrev S64 : Shape := ⟨1, ![64]⟩
abbrev S4x1x2048 : Shape := ⟨3, ![4, 1, 2048]⟩
abbrev S1x512x2048 : Shape := ⟨3, ![1, 512, 2048]⟩
abbrev S1x1x2048 : Shape := ⟨3, ![1, 1, 2048]⟩
abbrev S1x512 : Shape := ⟨2, ![1, 512]⟩
abbrev S1x512x1 : Shape := ⟨3, ![1, 512, 1]⟩
abbrev S1x2048 : Shape := ⟨2, ![1, 2048]⟩
abbrev S4x2048 : Shape := ⟨2, ![4, 2048]⟩
abbrev S1x64 : Shape := ⟨2, ![1, 64]⟩
abbrev S4x64 : Shape := ⟨2, ![4, 64]⟩
abbrev S4x512 : Shape := ⟨2, ![4, 512]⟩

abbrev nBuf : Space → Nat
  | .hbm => 13
  | .vmem => 12
  | .smem => 0
  | _ => 0

abbrev bufTy : (tb : Table) → Fin (tcTables nBuf tb) → BufTy
  | .hbm, ⟨0, _⟩ => ⟨S4x8192x2048, .f32⟩
  | .hbm, ⟨1, _⟩ => ⟨S2048x2048, .f32⟩
  | .hbm, ⟨2, _⟩ => ⟨S2048, .f32⟩
  | .hbm, ⟨3, _⟩ => ⟨S2048x512, .f32⟩
  | .hbm, ⟨4, _⟩ => ⟨S512, .f32⟩
  | .hbm, ⟨5, _⟩ => ⟨S512x64, .f32⟩
  | .hbm, ⟨6, _⟩ => ⟨S64, .f32⟩
  | .hbm, ⟨7, _⟩ => ⟨S4x1x2048, .f32⟩
  | .hbm, ⟨8, _⟩ => ⟨S4x2048, .f32⟩
  | .hbm, ⟨9, _⟩ => ⟨S1x2048, .f32⟩
  | .hbm, ⟨10, _⟩ => ⟨S1x512, .f32⟩
  | .hbm, ⟨11, _⟩ => ⟨S1x64, .f32⟩
  | .hbm, ⟨12, _⟩ => ⟨S4x64, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S4x2048, .f32⟩
  | .local _ .vmem, ⟨5, _⟩ => ⟨S2048x2048, .f32⟩
  | .local _ .vmem, ⟨6, _⟩ => ⟨S1x2048, .f32⟩
  | .local _ .vmem, ⟨7, _⟩ => ⟨S2048x512, .f32⟩
  | .local _ .vmem, ⟨8, _⟩ => ⟨S1x512, .f32⟩
  | .local _ .vmem, ⟨9, _⟩ => ⟨S512x64, .f32⟩
  | .local _ .vmem, ⟨10, _⟩ => ⟨S1x64, .f32⟩
  | .local _ .vmem, ⟨11, _⟩ => ⟨S4x64, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  inb_S1x1x2048_S1x1x2048_0_0_0 : ∀ a, (![0, 0, 0] : Fin 3 → Nat) a + S1x1x2048.size a ≤ S1x1x2048.size a
  h_S1x1x2048 : 0 < S1x1x2048.numel
  inb_S1x512x2048_S1x512x2048_0_0_0 : ∀ a, (![0, 0, 0] : Fin 3 → Nat) a + S1x512x2048.size a ≤ S1x512x2048.size a
  h_S1x512x2048 : 0 < S1x512x2048.numel
  reduces_S1x512x2048_S1x512 : S1x512x2048.Reduces [2] S1x512
  shapeCasts_S1x512_S1x512x1 : S1x512.ShapeCasts S1x512x1
  broadcasts_S1x512x1_S1x512x2048 : S1x512x1.Broadcasts S1x512x2048
  shapeCasts_S1x1x2048_S1x1x2048 : S1x1x2048.ShapeCasts S1x1x2048
  reduces_S1x512x2048_S1x2048 : S1x512x2048.Reduces [1] S1x2048
  shapeCasts_S1x2048_S1x1x2048 : S1x2048.ShapeCasts S1x1x2048
  shapeCasts_S4x1x2048_S4x2048 : S4x1x2048.ShapeCasts S4x2048
  shapeCasts_S2048_S1x2048 : S2048.ShapeCasts S1x2048
  shapeCasts_S512_S1x512 : S512.ShapeCasts S1x512
  shapeCasts_S64_S1x64 : S64.ShapeCasts S1x64
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S4x2048 : S1x2048.Broadcasts S4x2048
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4x512 : S1x512.Broadcasts S4x512
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4x64 : S1x64.Broadcasts S4x64
  inb_S4x64_S4x64_0_0 : ∀ a, (![0, 0] : Fin 2 → Nat) a + S4x64.size a ≤ S4x64.size a
  h_S4x64 : 0 < S4x64.numel
  dot_S4x2048_S2048x2048_S4x2048_1_0_0_1_n_n_wf : DotDims.WF S4x2048 S2048x2048 S4x2048 [1] [0] [0] [1] [] []
  dot_S4x2048_S2048x512_S4x512_1_0_0_1_n_n_wf : DotDims.WF S4x2048 S2048x512 S4x512 [1] [0] [0] [1] [] []
  dot_S4x512_S512x64_S4x64_1_0_0_1_n_n_wf : DotDims.WF S4x512 S512x64 S4x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x8192x2048.size a
  hwx0_0 : ∀ i : grid0.Coords, EltTy.bits .f32 = 32 ∨ (Rect.block (s := S4x8192x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S4x1x2048.size a
  hwx0_1 : ∀ i : grid0.Coords, EltTy.bits .f32 = 32 ∨ (Rect.block (s := S4x1x2048) S1x1x2048.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4x2048.size a ≤ S4x2048.size a
  hwx1_0 : ∀ i : grid1.Coords, EltTy.bits .f32 = 32 ∨ (Rect.block (s := S4x2048) S4x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .f32 = 32 ∨ (Rect.block (s := S2048x2048) S2048x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S2048x512.size a
  hwx1_3 : ∀ i : grid1.Coords, EltTy.bits .f32 = 32 ∨ (Rect.block (s := S2048x512) S2048x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x64.size a ≤ S512x64.size a
  hwx1_5 : ∀ i : grid1.Coords, EltTy.bits .f32 = 32 ∨ (Rect.block (s := S512x64) S512x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4x64.size a ≤ S4x64.size a
  hwx1_7 : ∀ i : grid1.Coords, EltTy.bits .f32 = 32 ∨ (Rect.block (s := S4x64) S4x64.size (cc1_transform_7 i) (hinb1_7 i)).WholeWords (EltTy.packing .f32)

variable [Facts₀]

def dot_S4x2048_S2048x2048_S4x2048_1_0_0_1_n_n : DotDims S4x2048 S2048x2048 S4x2048 where
  lhsContracting := [1]
  rhsContracting := [0]
  lhsNonContracting := [0]
  rhsNonContracting := [1]
  lhsBatch := []
  rhsBatch := []
  wf := dot_S4x2048_S2048x2048_S4x2048_1_0_0_1_n_n_wf
def dot_S4x2048_S2048x512_S4x512_1_0_0_1_n_n : DotDims S4x2048 S2048x512 S4x512 where
  lhsContracting := [1]
  rhsContracting := [0]
  lhsNonContracting := [0]
  rhsNonContracting := [1]
  lhsBatch := []
  rhsBatch := []
  wf := dot_S4x2048_S2048x512_S4x512_1_0_0_1_n_n_wf
def dot_S4x512_S512x64_S4x64_1_0_0_1_n_n : DotDims S4x512 S512x64 S4x64 where
  lhsContracting := [1]
  rhsContracting := [0]
  lhsNonContracting := [0]
  rhsNonContracting := [1]
  lhsBatch := []
  rhsBatch := []
  wf := dot_S4x512_S512x64_S4x64_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S4x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S2048x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S512x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S4x64.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4x8192x2048 : Shape := ⟨3, ![4, 8192, 2048]⟩
abbrev S2048x2048 : Shape := ⟨2, ![2048, 2048]⟩
abbrev S2048 : Shape := ⟨1, ![2048]⟩
abbrev S2048x512 : Shape := ⟨2, ![2048, 512]⟩
abbrev S512 : Shape := ⟨1, ![512]⟩
abbrev S512x64 : Shape := ⟨2, ![512, 64]⟩
abbrev S64 : Shape := ⟨1, ![64]⟩
abbrev S_ : Shape := ⟨0, ![]⟩
abbrev S4x8192 : Shape := ⟨2, ![4, 8192]⟩
abbrev S4x8192x1 : Shape := ⟨3, ![4, 8192, 1]⟩
abbrev S4x2048 : Shape := ⟨2, ![4, 2048]⟩
abbrev S1x2048 : Shape := ⟨2, ![1, 2048]⟩
abbrev S4x512 : Shape := ⟨2, ![4, 512]⟩
abbrev S1x512 : Shape := ⟨2, ![1, 512]⟩
abbrev S4x64 : Shape := ⟨2, ![4, 64]⟩
abbrev S1x64 : Shape := ⟨2, ![1, 64]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x2048, .f32⟩
  | .hbm, ⟨2, _⟩ => ⟨S2048, .f32⟩
  | .hbm, ⟨3, _⟩ => ⟨S2048x512, .f32⟩
  | .hbm, ⟨4, _⟩ => ⟨S512, .f32⟩
  | .hbm, ⟨5, _⟩ => ⟨S512x64, .f32⟩
  | .hbm, ⟨6, _⟩ => ⟨S64, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x2048, .f32⟩
  | .hbm, ⟨14, _⟩ => ⟨S4x8192x2048, .f32⟩
  | .hbm, ⟨15, _⟩ => ⟨S4x8192x2048, .f32⟩
  | .hbm, ⟨16, _⟩ => ⟨S_, .f32⟩
  | .hbm, ⟨17, _⟩ => ⟨S4x2048, .f32⟩
  | .hbm, ⟨18, _⟩ => ⟨S_, .f32⟩
  | .hbm, ⟨19, _⟩ => ⟨S4x2048, .f32⟩
  | .hbm, ⟨20, _⟩ => ⟨S4x2048, .f32⟩
  | .hbm, ⟨21, _⟩ => ⟨S4x2048, .f32⟩
  | .hbm, ⟨22, _⟩ => ⟨S4x2048, .f32⟩
  | .hbm, ⟨23, _⟩ => ⟨S1x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S_, .f32⟩
  | .hbm, ⟨28, _⟩ => ⟨S4x2048, .f32⟩
  | .hbm, ⟨29, _⟩ => ⟨S4x2048, .i1⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S4x512, .f32⟩
  | .hbm, ⟨35, _⟩ => ⟨S1x512, .f32⟩
  | .hbm, ⟨36, _⟩ => ⟨S4x512, .f32⟩
  | .hbm, ⟨37, _⟩ => ⟨S4x512, .f32⟩
  | .hbm, ⟨38, _⟩ => ⟨S_, .f32⟩
  | .hbm, ⟨39, _⟩ => ⟨S_, .f32⟩
  | .hbm, ⟨40, _⟩ => ⟨S4x512, .f32⟩
  | .hbm, ⟨41, _⟩ => ⟨S4x512, .i1⟩
  | .hbm, ⟨42, _⟩ => ⟨S_, .f32⟩
  | .hbm, ⟨43, _⟩ => ⟨S4x512, .f32⟩
  | .hbm, ⟨44, _⟩ => ⟨S4x512, .f32⟩
  | .hbm, ⟨45, _⟩ => ⟨S4x512, .f32⟩
  | .hbm, ⟨46, _⟩ => ⟨S4x64, .f32⟩
  | .hbm, ⟨47, _⟩ => ⟨S1x64, .f32⟩
  | .hbm, ⟨48, _⟩ => ⟨S4x64, .f32⟩
  | .hbm, ⟨49, _⟩ => ⟨S4x64, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩

abbrev nD : Nat := 1
abbrev τ : Topo := Topo.v7x

variable {F : FTy → Type} [FloatOps F]

class Facts₀ : Prop where
  reducesTo_S4x8192x2048_S4x8192_d2 : S4x8192x2048.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x2048_0_1_2 : S4x8192x1.BroadcastsInDim S4x8192x2048 (![0, 1, 2] : Fin 3 → Fin S4x8192x2048.rank)
  reducesTo_S4x8192x2048_S4x2048_d1 : S4x8192x2048.ReducesTo [1] S4x2048
  bcast_S_S4x2048 : S_.BroadcastsInDim S4x2048 (![] : Fin 0 → Fin S4x2048.rank)
  bcast_S2048_S1x2048_1 : S2048.BroadcastsInDim S1x2048 (![1] : Fin 1 → Fin S1x2048.rank)
  bcast_S1x2048_S4x2048_0_1 : S1x2048.BroadcastsInDim S4x2048 (![0, 1] : Fin 2 → Fin S4x2048.rank)
  bcast_S512_S1x512_1 : S512.BroadcastsInDim S1x512 (![1] : Fin 1 → Fin S1x512.rank)
  bcast_S1x512_S4x512_0_1 : S1x512.BroadcastsInDim S4x512 (![0, 1] : Fin 2 → Fin S4x512.rank)
  bcast_S_S4x512 : S_.BroadcastsInDim S4x512 (![] : Fin 0 → Fin S4x512.rank)
  bcast_S64_S1x64_1 : S64.BroadcastsInDim S1x64 (![1] : Fin 1 → Fin S1x64.rank)
  bcast_S1x64_S4x64_0_1 : S1x64.BroadcastsInDim S4x64 (![0, 1] : Fin 2 → Fin S4x64.rank)
  dot_S4x2048_S2048x2048_S4x2048_1_0_0_1_n_n_wf : DotDims.WF S4x2048 S2048x2048 S4x2048 [1] [0] [0] [1] [] []
  dot_S4x2048_S2048x512_S4x512_1_0_0_1_n_n_wf : DotDims.WF S4x2048 S2048x512 S4x512 [1] [0] [0] [1] [] []
  dot_S4x512_S512x64_S4x64_1_0_0_1_n_n_wf : DotDims.WF S4x512 S512x64 S4x64 [1] [0] [0] [1] [] []

variable [Facts₀]

def dot_S4x2048_S2048x2048_S4x2048_1_0_0_1_n_n : DotDims S4x2048 S2048x2048 S4x2048 where
  lhsContracting := [1]
  rhsContracting := [0]
  lhsNonContracting := [0]
  rhsNonContracting := [1]
  lhsBatch := []
  rhsBatch := []
  wf := dot_S4x2048_S2048x2048_S4x2048_1_0_0_1_n_n_wf
def dot_S4x2048_S2048x512_S4x512_1_0_0_1_n_n : DotDims S4x2048 S2048x512 S4x512 where
  lhsContracting := [1]
  rhsContracting := [0]
  lhsNonContracting := [0]
  rhsNonContracting := [1]
  lhsBatch := []
  rhsBatch := []
  wf := dot_S4x2048_S2048x512_S4x512_1_0_0_1_n_n_wf
def dot_S4x512_S512x64_S4x64_1_0_0_1_n_n : DotDims S4x512 S512x64 S4x64 where
  lhsContracting := [1]
  rhsContracting := [0]
  lhsNonContracting := [0]
  rhsNonContracting := [1]
  lhsBatch := []
  rhsBatch := []
  wf := dot_S4x512_S512x64_S4x64_1_0_0_1_n_n_wf

class Facts : Prop extends Facts₀ where

variable [Facts]
-- ==== Proof.KSpec.lean ====
/-
  What the two kernel regions compute, as functions of whole arrays (any float instance).

  Region 0 walks a 4 × 16 grid. Point t = 16 b + n sees rows 512 n … 512 n + 511 of batch b, all 2048 features
  (`tile`), forms each row's mean over the features, and adds the column sums of the squared centred rows to a
  running [1, 1, 2048] accumulator that is reset to zero when n = 0 (`accAt`: the body's own arithmetic, the
  payloads `k0_pay1` and `k0_pay2`, folded over the points). Row b of the region's result is the accumulator
  after the last tile of batch b (`kerSs`).

  Region 1 is one grid point: the ratio s / (s + ε), three matrix products with bias and leaky rectifier between
  them (`kerMlp`: the body's payloads over the whole arrays, the three biases reshaped to one row).
-/
import proofs.«171786_j4887672783552_1_alg».proof.Proof.Gen.KernelIdeal.Skeleton
import Idealize.ShloMosaic.Lib.ValueIdx

noncomputable section

namespace Cert.KSpec

open Idealize.ShloMosaic Idealize.ShloMosaic.ValueIdx Cert.KernelIdeal Cert.KernelIdeal.Gen

variable {F : FTy → Type} [FloatOps F]

/-- Row tile `t` of `x`: batch `t / 16`, rows `512 (t % 16) + r` for r < 512, every feature. -/
def tile (x : FVec F S4x8192x2048 .f32) (t : Fin 64) : Vec F S1x512x2048 .f32 :=
  fun y => x (ix3 (⟨t.val / 16, by have := t.isLt; omega⟩ : Fin 4)
    (⟨512 * (t.val % 16) + (y 1).val, by have h1 : (y 1).val < 512 := (y 1).isLt; omega⟩ : Fin 8192)
    (⟨(y 2).val, (y 2).isLt⟩ : Fin 2048))

/-- The accumulator after point `n`: reset-then-add at the first tile of a batch, add otherwise. -/
def accAt (x : FVec F S4x8192x2048 .f32) : (n : ℕ) → n < 64 → Vec F S1x1x2048 .f32
  | 0, h => k0_pay2 (tile x ⟨0, h⟩) (k0_pay1 (F := F))
  | n + 1, h =>
    if (n + 1) % 16 = 0 then k0_pay2 (tile x ⟨n + 1, h⟩) (k0_pay1 (F := F))
    else k0_pay2 (tile x ⟨n + 1, h⟩) (accAt x n (Nat.lt_of_succ_lt h))

/-- Region 0's result array [4, 1, 2048]: row `b` is the accumulator after point `16 b + 15`. -/
def kerSs (x : FVec F S4x8192x2048 .f32) : Vec F S4x1x2048 .f32 :=
  fun i => accAt x (16 * (i 0).val + 15) (by have h0 : (i 0).val < 4 := (i 0).isLt; omega)
    (ix3 (0 : Fin 1) (0 : Fin 1) (⟨(i 2).val, (i 2).isLt⟩ : Fin 2048))

/-- Region 1's result array [4, 64] from the [4, 2048] sums of squares, the weights and the (rank-1) biases. -/
def kerMlp (s : Vec F S4x2048 .f32) (w1 : Vec F S2048x2048 .f32) (b1 : Vec F S2048 .f32) (w2 : Vec F S2048x512 .f32)
    (b2 : Vec F S512 .f32) (w3 : Vec F S512x64 .f32) (b3 : Vec F S64 .f32) : Vec F S4x64 .f32 :=
  k1_pay1
    (k1_pay2 s w1 (shapeCast S1x2048 b1 shapeCasts_S2048_S1x2048) w2 (shapeCast S1x512 b2 shapeCasts_S512_S1x512) w3)
    (k1_pay3 (shapeCast S1x64 b3 shapeCasts_S64_S1x64))

end Cert.KSpec

end
-- ==== Proof.Reg0Value.lean ====
/-
  What region 0 leaves in its result array, for any float instance.

  The region walks a 4 × 16 grid; point t = 16 b + n sees row tile n of batch b and carries one [1, 1, 2048] block of
  the result across the 16 points of the batch, writing it back after the last. At the first point of a batch the body
  resets the block to zero and adds the tile's contribution; at every other point it adds the contribution to what the
  point before left. So the block after point t is the accumulator `KSpec.accAt` at t (induction on the point), the
  write-back at t = 16 b + 15 writes row b of `KSpec.kerSs`, and the four write-backs cover the array.
-/
import proofs.«171786_j4887672783552_1_alg».proof.Proof.Gen.KernelIdeal.Frame
import proofs.«171786_j4887672783552_1_alg».proof.Proof.KSpec
import Idealize.ShloMosaic.Lib.Pipeline.Value
import Idealize.ShloMosaic.Lib.Tactic

noncomputable section

namespace Cert.KernelIdeal.Reg0Value

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The zero offsets of a rank-3 rectangle, as a constant function. -/
theorem hz : (![0, 0, 0] : Fin 3 → Nat) = fun _ => 0 := funext fun a => by fin_cases a <;> rfl

/-- At a point that is not the first of its batch the body leaves, in the result's staging buffer holding `xo`, the
    running value `xo` with the tile `x`'s contribution added: its one covering store's payload. -/
theorem out_B (c : Dev nD) (i : grid0.Coords) (a2 : Memref sig .tc .vmem S1x512x2048 .f32) (h2 : a2.IsWhole)
    (a3 : Memref sig .tc .vmem S1x1x2048 .f32) (h3 : a3.IsWhole) (hc : ¬cond0_0 i)
    (x : Vec F S1x512x2048 .f32) (xo : Vec F S1x1x2048 .f32) :
    out0_B_1 c i a2 h2 a3 h3 hc x xo = k0_pay2 x xo := by
  unfold out0_B_1
  rw [View.read_writes_eq_canon _ _ _ (cover0_B_1 c i a2 h2 a3 h3 hc x xo)]
  unfold kernelRun0_B
  dsimp only
  rw [View.canon_unit_zero hz]
  simp only [View.readAt_eq_ld, h2.read_unread, h3.read_unread, View.ld_unit_zero (S := S1x1x2048) hz,
    View.ld_unit_zero (S := S1x512x2048) hz]

/-- At the first point of a batch the body stores the zero block, reads it back and leaves the tile's contribution
    added to it. -/
theorem out_A (c : Dev nD) (i : grid0.Coords) (a2 : Memref sig .tc .vmem S1x512x2048 .f32) (h2 : a2.IsWhole)
    (a3 : Memref sig .tc .vmem S1x1x2048 .f32) (h3 : a3.IsWhole) (hc : cond0_0 i)
    (x : Vec F S1x512x2048 .f32) :
    out0_A_1 c i a2 h2 a3 h3 hc x = k0_pay2 x (k0_pay1 (F := F)) := by
  unfold out0_A_1
  rw [View.read_writes_eq_canon _ _ _ (cover0_A_1 c i a2 h2 a3 h3 hc x)]
  unfold kernelRun0_A
  dsimp only
  sl_unfold_words
  rw [View.canon_cons_unit_zero (S := S1x1x2048) hz, View.readCov_unit_zero (S := S1x1x2048) _ hz]
  simp only [View.readAt_eq_ld, h2.read_unread, View.ld_unit_zero (S := S1x512x2048) hz]

/-- The grid's block indices, decided once over its 64 points: the input's block at point t is (t / 16, t % 16, 0), the
    result's (t / 16, 0, 0). -/
theorem idx0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem idx1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)

/-- The grid has 64 points. -/
theorem lt64 (t : Fin cfg0.N) : t.val < 64 := lt_of_lt_of_eq t.isLt N_0

/-- The input window's block at point t, read off the launch contents, is row tile t of the argument. -/
theorem iblk_eq (c : Dev nD) (t : Fin cfg0.N) :
    (iblk0 (V0 m ρ) c 0 t : Vec F S1x512x2048 .f32)
      = Cert.KSpec.tile (m ((c.tc : Thread nD τ).loc main_arg0)) ⟨t.val, lt64 t⟩ := by
  obtain ⟨i0, i1, i2⟩ := idx0 t
  funext y
  unfold iblk0 Cert.KSpec.tile
  rw [View.read_apply]
  show m (c.tc.loc main_arg0) _ = m (c.tc.loc main_arg0) _
  congr 1
  funext a
  apply Fin.ext
  match a with
  | ⟨0, _⟩ => show win0_0.index t 0 * 1 + 1 * (y 0).val = t.val / 16
              have h0 : (y 0).val < 1 := (y 0).isLt
              rw [i0]; omega
  | ⟨1, _⟩ => show win0_0.index t 1 * 512 + 1 * (y 1).val = 512 * (t.val % 16) + (y 1).val
              rw [i1]; omega
  | ⟨2, _⟩ => show win0_0.index t 2 * 2048 + 1 * (y 2).val = (y 2).val
              rw [i2]; omega

/-- What the result's staging buffer holds after point n is the accumulator after point n: by induction on the point,
    the two cases of the body matched to the two branches of the accumulator's recursion. -/
theorem outsAt_eq (c : Dev nD) : ∀ (n : ℕ) (hn : n < cfg0.N),
    outsAt0 (V0 m ρ) c n hn
      = Cert.KSpec.accAt (m ((c.tc : Thread nD τ).loc main_arg0)) n (lt_of_lt_of_eq hn N_0)
  | 0, h => by
    rw [outsAt0_A (V0 m ρ) c ⟨0, h⟩ rfl, out_A, iblk_eq]
    rfl
  | n + 1, h => by
    by_cases h0 : (n + 1) % 16 = 0
    · rw [outsAt0_A (V0 m ρ) c ⟨n + 1, h⟩ h0, out_A, iblk_eq]
      exact (if_pos h0).symm
    · rw [outsAt0_B (V0 m ρ) c ⟨n + 1, h⟩ h0, out_B, iblk_eq]
      show k0_pay2 _ (outsAt0 (V0 m ρ) c n _) = _
      rw [outsAt_eq c n]
      exact (if_neg h0).symm

/-- The accumulator read at equal points and equal indices (the bound it carries is a proof). -/
theorem accAt_congr (x : FVec F S4x8192x2048 .f32) {n n' : ℕ} (e : n = n') (h : n < 64) (h' : n' < 64)
    {j j' : S1x1x2048.Idx} (ej : j = j') : Cert.KSpec.accAt x n h j = Cert.KSpec.accAt x n' h' j' := by
  subst e; subst ej; rfl

/-- What each write-back writes — at the last point of a batch, the accumulator there — is its block of the result. -/
theorem flushed_eq (c : Dev nD) (t : Fin cfg0.N) (hf : (cfg0.win 1).flush t = true) :
    (dat0 (V0 m ρ) c).flushed 1 t
      = ((cfg0.win 1).blk t).view.read (Elt F) (Cert.KSpec.kerSs (m ((c.tc : Thread nD τ).loc main_arg0))) := by
  have h15 : t.val % 16 = 15 := (flush0_1 t).mp hf
  have hN := lt64 t
  obtain ⟨i0, i1, i2⟩ := idx1 t
  show (cfg0.win 1).cut (grid0.coords t) ((dat0 (V0 m ρ) c).after 1 t) = _
  rw [after0_1, outsAt_eq]
  funext y
  rw [View.read_apply]
  show Cert.KSpec.accAt _ t.val _ ((cfg0.win 1).xinj (grid0.coords t) y)
    = Cert.KSpec.kerSs (m ((c.tc : Thread nD τ).loc main_arg0)) (((cfg0.win 1).blk t).view.emb y)
  unfold Cert.KSpec.kerSs
  refine accAt_congr _ ?_ _ _ ?_
  · show t.val = 16 * (win0_1.index t 0 * 1 + 1 * (y 0).val) + 15
    have h0 : (y 0).val < 1 := (y 0).isLt
    rw [i0]; omega
  · funext a
    apply Fin.ext
    match a with
    | ⟨0, _⟩ => show (y 0).val = 0
                have h0 : (y 0).val < 1 := (y 0).isLt
                omega
    | ⟨1, _⟩ => show (y 1).val = 0
                have h1 : (y 1).val < 1 := (y 1).isLt
                omega
    | ⟨2, _⟩ => show (y 2).val = win0_1.index t 2 * 2048 + 1 * (y 2).val
                rw [i2]; omega

/-- After region 0 its result array [4, 1, 2048] holds, in row b, the accumulator after the last tile of batch b. -/
theorem ss_final (c : Dev nD) :
    W1 m ρ c (Proc.devRef .tc main_v0) = Cert.KSpec.kerSs (m ((c.tc : Thread nD τ).loc main_arg0)) := by
  show W1 m ρ c (Proc.devRef .tc (Pipeline.arrRef spec0 1)) = _
  refine (W1_arr m ρ c 1).trans ?_
  refine (dat0 (V0 m ρ) c).arrAt_eq_of_cover 1 (Cert.KSpec.kerSs (m ((c.tc : Thread nD τ).loc main_arg0)))
    (flushed_eq m ρ c) fun i => ?_
  have h0 : (i 0 : Nat) < 4 := (i 0).isLt
  have h1 : (i 1 : Nat) < 1 := (i 1).isLt
  have h2 : (i 2 : Nat) < 2048 := (i 2).isLt
  obtain ⟨t, ht⟩ : ∃ t : Fin cfg0.N, t.val = 16 * (i 0 : Nat) + 15 :=
    ⟨⟨16 * (i 0 : Nat) + 15, by rw [show cfg0.N = 64 from N_0]; omega⟩, rfl⟩
  obtain ⟨i0, i1, i2⟩ := idx1 t
  refine ⟨t, (flush0_1 t).mpr (by omega), ?_⟩
  show i ∈ ((View.whole main_v0).slice (win0_1.rect t)).set
  rw [View.set_slice_whole, Rect.mem_set_unit]
  intro a
  match a with
  | ⟨0, _⟩ => show win0_1.index t 0 * 1 ≤ (i 0 : Nat) ∧ (i 0 : Nat) < win0_1.index t 0 * 1 + 1
              rw [i0]; omega
  | ⟨1, _⟩ => show win0_1.index t 1 * 1 ≤ (i 1 : Nat) ∧ (i 1 : Nat) < win0_1.index t 1 * 1 + 1
              rw [i1]; omega
  | ⟨2, _⟩ => show win0_1.index t 2 * 2048 ≤ (i 2 : Nat) ∧ (i 2 : Nat) < win0_1.index t 2 * 2048 + 2048
              rw [i2]; omega

end Cert.KernelIdeal.Reg0Value

end
-- ==== Proof.Reg1Value.lean ====
/-
  What the second region leaves in its result array. Its grid has one point and every window's block is its whole
  array, so the input blocks are the arrays as the region finds them, the one write-back covers the result array,
  and the array ends at the body's one store: the payload of the seven inputs. The region finds its first input
  at the first region's result reshaped from [4, 1, 2048] to [4, 2048], the three weight arrays as launched, and
  the three biases reshaped from rank 1 to one row (the four host reshapes between the regions).
-/
import proofs.«171786_j4887672783552_1_alg».proof.Proof.Gen.KernelIdeal.Frame
import proofs.«171786_j4887672783552_1_alg».proof.Proof.KSpec
import Idealize.ShloMosaic.Lib.Pipeline.Value
import Idealize.ShloMosaic.Lib.StableHlo.Run
import Idealize.ShloMosaic.Lib.Tactic

noncomputable section

namespace Cert.KernelIdeal.Reg1Value

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl

/-- The grid's one point. -/
abbrev t0 : Fin cfg1.N := ⟨0, by rw [show cfg1.N = 1 from N_1]; decide⟩

theorem t_eq (t : Fin cfg1.N) : t = t0 := by
  have hlt : t.val < 1 := lt_of_lt_of_eq t.isLt N_1
  apply Fin.ext
  show t.val = 0
  omega

/-- The body's one store, read back: the payload of the loaded inputs (each load reads its whole buffer). -/
theorem out1_7_eq (x0 : Vec F S4x2048 .f32) (x1 : Vec F S2048x2048 .f32) (x2 : Vec F S1x2048 .f32) (x3 : Vec F S2048x512 .f32)
    (x4 : Vec F S1x512 .f32) (x5 : Vec F S512x64 .f32) (x6 : Vec F S1x64 .f32) :
    out1_7 x0 x1 x2 x3 x4 x5 x6 = k1_pay1 (k1_pay2 x0 x1 x2 x3 x4 x5) (k1_pay3 x6) := by
  unfold out1_7
  rw [View.canon_unit_zero hz2]
  simp only [View.ld_unit_zero (S := S4x2048) hz2, View.ld_unit_zero (S := S2048x2048) hz2, View.ld_unit_zero (S := S1x2048) hz2,
    View.ld_unit_zero (S := S2048x512) hz2, View.ld_unit_zero (S := S1x512) hz2, View.ld_unit_zero (S := S512x64) hz2,
    View.ld_unit_zero (S := S1x64) hz2]

section Blocks
variable (V : (c : Dev nD) → (b : Ref sig .tc) → Buf (Elt F) ((c : Thread nD τ).loc b))

/-- Each input window's block at the one point is its whole array. -/
theorem iblk1_0 (c : Dev nD) : (iblk1 V c 0 t0 : Vec F S4x2048 .f32) = V c main_v1 := by
  unfold iblk1
  have hz' : (fun a => win1_0.index t0 a * main_v1.ty.shape.size a) = fun _ => 0 := funext fun a => by fin_cases a <;> decide
  exact Memref.read_access_unit_zero (Elt F) main_v1 hz' (fun a => by rw [congrFun hz' a]; simp) (V c main_v1)
theorem iblk1_1 (c : Dev nD) : (iblk1 V c 1 t0 : Vec F S2048x2048 .f32) = V c main_arg1 := by
  unfold iblk1
  have hz' : (fun a => win1_1.index t0 a * main_arg1.ty.shape.size a) = fun _ => 0 := funext fun a => by fin_cases a <;> decide
  exact Memref.read_access_unit_zero (Elt F) main_arg1 hz' (fun a => by rw [congrFun hz' a]; simp) (V c main_arg1)
theorem iblk1_2 (c : Dev nD) : (iblk1 V c 2 t0 : Vec F S1x2048 .f32) = V c main_v2 := by
  unfold iblk1
  have hz' : (fun a => win1_2.index t0 a * main_v2.ty.shape.size a) = fun _ => 0 := funext fun a => by fin_cases a <;> decide
  exact Memref.read_access_unit_zero (Elt F) main_v2 hz' (fun a => by rw [congrFun hz' a]; simp) (V c main_v2)
theorem iblk1_3 (c : Dev nD) : (iblk1 V c 3 t0 : Vec F S2048x512 .f32) = V c main_arg3 := by
  unfold iblk1
  have hz' : (fun a => win1_3.index t0 a * main_arg3.ty.shape.size a) = fun _ => 0 := funext fun a => by fin_cases a <;> decide
  exact Memref.read_access_unit_zero (Elt F) main_arg3 hz' (fun a => by rw [congrFun hz' a]; simp) (V c main_arg3)
theorem iblk1_4 (c : Dev nD) : (iblk1 V c 4 t0 : Vec F S1x512 .f32) = V c main_v3 := by
  unfold iblk1
  have hz' : (fun a => win1_4.index t0 a * main_v3.ty.shape.size a) = fun _ => 0 := funext fun a => by fin_cases a <;> decide
  exact Memref.read_access_unit_zero (Elt F) main_v3 hz' (fun a => by rw [congrFun hz' a]; simp) (V c main_v3)
theorem iblk1_5 (c : Dev nD) : (iblk1 V c 5 t0 : Vec F S512x64 .f32) = V c main_arg5 := by
  unfold iblk1
  have hz' : (fun a => win1_5.index t0 a * main_arg5.ty.shape.size a) = fun _ => 0 := funext fun a => by fin_cases a <;> decide
  exact Memref.read_access_unit_zero (Elt F) main_arg5 hz' (fun a => by rw [congrFun hz' a]; simp) (V c main_arg5)
theorem iblk1_6 (c : Dev nD) : (iblk1 V c 6 t0 : Vec F S1x64 .f32) = V c main_v4 := by
  unfold iblk1
  have hz' : (fun a => win1_6.index t0 a * main_v4.ty.shape.size a) = fun _ => 0 := funext fun a => by fin_cases a <;> decide
  exact Memref.read_access_unit_zero (Elt F) main_v4 hz' (fun a => by rw [congrFun hz' a]; simp) (V c main_v4)

/-- What the region's result array ends holding, from the arrays as the region finds them. -/
abbrev G (c : Dev nD) : Buf (Elt F) ((c : Thread nD τ).loc main_v5) :=
  k1_pay1 (k1_pay2 (V c main_v1) (V c main_arg1) (V c main_v2) (V c main_arg3) (V c main_v3) (V c main_arg5)) (k1_pay3 (V c main_v4))

/-- The one write-back writes it: the result window's one block is the whole array. -/
theorem flushed_eq (c : Dev nD) (t : Fin cfg1.N) (hf : (cfg1.win 7).flush t = true) :
    (dat1 V c).flushed 7 t = ((cfg1.win 7).blk t).view.read (Elt F) (G V c) := by
  obtain rfl := t_eq t
  show (cfg1.win 7).cut (grid1.coords t0) ((dat1 V c).after 7 t0) = _
  rw [after1_7, out1_7_eq, iblk1_0, iblk1_1, iblk1_2, iblk1_3, iblk1_4, iblk1_5, iblk1_6]
  have hz' : (fun a => win1_7.index t0 a * main_v5.ty.shape.size a) = fun _ => 0 := funext fun a => by fin_cases a <;> decide
  exact (Memref.read_access_unit_zero (Elt F) main_v5 hz' (fun a => by rw [congrFun hz' a]; simp) (G V c)).symm

/-- So the array ends holding it. -/
theorem final7 (c : Dev nD) : (dat1 V c).arrAt 7 cfg1.N = G V c :=
  (dat1 V c).arrAt_eq_of_cover 7 (G V c) (flushed_eq V c) fun i =>
    ⟨t0, flush1_7 t0, by
      show i ∈ ((View.whole main_v5).slice (win1_7.rect t0)).set
      rw [View.set_slice_whole, Rect.mem_set_unit]
      intro a
      have h0 : (i 0 : Nat) < 4 := (i 0).isLt
      have h1 : (i 1 : Nat) < 64 := (i 1).isLt
      match a with
      | ⟨0, _⟩ => show win1_7.index t0 0 * win1_7.size 0 ≤ (i 0 : Nat) ∧ (i 0 : Nat) < win1_7.index t0 0 * win1_7.size 0 + win1_7.xsize (grid1.coords t0) 0
                  rw [show win1_7.index t0 0 * win1_7.size 0 = 0 from by decide +kernel, show win1_7.xsize (grid1.coords t0) 0 = 4 from by decide +kernel]; omega
      | ⟨1, _⟩ => show win1_7.index t0 1 * win1_7.size 1 ≤ (i 1 : Nat) ∧ (i 1 : Nat) < win1_7.index t0 1 * win1_7.size 1 + win1_7.xsize (grid1.coords t0) 1
                  rw [show win1_7.index t0 1 * win1_7.size 1 = 0 from by decide +kernel, show win1_7.xsize (grid1.coords t0) 1 = 64 from by decide +kernel]; omega⟩

end Blocks

/-! The arrays as the second region finds them: the four reshapes applied to what the first region left. -/

theorem V2_v1 (c : Dev nD) :
    V2 m ρ c main_v1 = shapeCast S4x2048 (W1 m ρ c (Proc.devRef .tc main_v0)) shapeCasts_S4x1x2048_S4x2048 := by
  show StableHlo.after hostOps1 (W1 m ρ c) (Proc.devRef .tc main_v1) = _
  after_results
  rfl
theorem V2_v2 (c : Dev nD) :
    V2 m ρ c main_v2 = shapeCast S1x2048 (m ((c.tc : Thread nD τ).loc main_arg2)) shapeCasts_S2048_S1x2048 := by
  show StableHlo.after hostOps1 (W1 m ρ c) (Proc.devRef .tc main_v2) = _
  after_results
  rw [W1_of_ne m ρ c main_arg2 (by decide)]
  rfl
theorem V2_v3 (c : Dev nD) :
    V2 m ρ c main_v3 = shapeCast S1x512 (m ((c.tc : Thread nD τ).loc main_arg4)) shapeCasts_S512_S1x512 := by
  show StableHlo.after hostOps1 (W1 m ρ c) (Proc.devRef .tc main_v3) = _
  after_results
  rw [W1_of_ne m ρ c main_arg4 (by decide)]
  rfl
theorem V2_v4 (c : Dev nD) :
    V2 m ρ c main_v4 = shapeCast S1x64 (m ((c.tc : Thread nD τ).loc main_arg6)) shapeCasts_S64_S1x64 := by
  show StableHlo.after hostOps1 (W1 m ρ c) (Proc.devRef .tc main_v4) = _
  after_results
  rw [W1_of_ne m ρ c main_arg6 (by decide)]
  rfl
theorem V2_arg1 (c : Dev nD) : V2 m ρ c main_arg1 = m ((c.tc : Thread nD τ).loc main_arg1) := by
  show StableHlo.after hostOps1 (W1 m ρ c) (Proc.devRef .tc main_arg1) = _
  after_results
  exact W1_of_ne m ρ c main_arg1 (by decide)
theorem V2_arg3 (c : Dev nD) : V2 m ρ c main_arg3 = m ((c.tc : Thread nD τ).loc main_arg3) := by
  show StableHlo.after hostOps1 (W1 m ρ c) (Proc.devRef .tc main_arg3) = _
  after_results
  exact W1_of_ne m ρ c main_arg3 (by decide)
theorem V2_arg5 (c : Dev nD) : V2 m ρ c main_arg5 = m ((c.tc : Thread nD τ).loc main_arg5) := by
  show StableHlo.after hostOps1 (W1 m ρ c) (Proc.devRef .tc main_arg5) = _
  after_results
  exact W1_of_ne m ρ c main_arg5 (by decide)

/-- After region 1 the result array [4, 64] holds the body's payload of region 0's result reshaped to [4, 2048],
    the three weight arrays as launched and the three biases as launched (the host reshapes them to one row). -/
theorem mlp_final (c : Dev nD) :
    W3 m ρ c (Proc.devRef .tc main_v5)
      = Cert.KSpec.kerMlp (shapeCast S4x2048 (W1 m ρ c (Proc.devRef .tc main_v0)) shapeCasts_S4x1x2048_S4x2048)
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6)) := by
  refine (W3_arr m ρ c 7).trans ((final7 (V2 m ρ) c).trans ?_)
  unfold Cert.KSpec.kerMlp
  show k1_pay1 (k1_pay2 (V2 m ρ c main_v1) (V2 m ρ c main_arg1) (V2 m ρ c main_v2) (V2 m ρ c main_arg3)
      (V2 m ρ c main_v3) (V2 m ρ c main_arg5)) (k1_pay3 (V2 m ρ c main_v4)) = _
  rw [V2_v1 m ρ c, V2_v2 m ρ c, V2_v3 m ρ c, V2_v4 m ρ c, V2_arg1 m ρ c, V2_arg3 m ρ c, V2_arg5 m ρ c]

end Cert.KernelIdeal.Reg1Value

end
-- ==== Proof.KValue.lean ====
/-
  The kernel program's result as one function of its arguments: the second region's function of the first region's
  result array (reshaped from [4, 1, 2048] to [4, 2048] by the host between the regions), the weights and the biases,
  with the first region's result array at its own function of the input array.
-/
import proofs.«171786_j4887672783552_1_alg».proof.Proof.KRun
import proofs.«171786_j4887672783552_1_alg».proof.Proof.Reg0Value
import proofs.«171786_j4887672783552_1_alg».proof.Proof.Reg1Value

noncomputable section

namespace Cert.KernelIdeal.KValue

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The kernel program's result as a function of the seven argument arrays. -/
def result (c : Dev nD) : Buf (Elt F) ((c.tc : Thread nD τ).loc main_v5) :=
  Cert.KSpec.kerMlp
    (shapeCast S4x2048 (Cert.KSpec.kerSs (m ((c.tc : Thread nD τ).loc main_arg0))) shapeCasts_S4x1x2048_S4x2048)
    (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))

/-- The run with the result array named. -/
theorem run : θ_run defs (onTc (τ := τ) (main (F := F))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (by
      rw [Cert.KernelIdeal.Reg1Value.mlp_final m ρ c, Cert.KernelIdeal.Reg0Value.ss_final m ρ c]; rfl), (h c).2⟩)
    (Cert.KernelIdeal.KRun.run_main m ρ)

end Cert.KernelIdeal.KValue

end
-- ==== Proof.RSpec.lean ====
/-
  What the reference computes, as functions of whole arrays (any float instance), cut where the kernel is cut:
  `refSs` — per batch and feature, the sum over the 8192 rows of the squared deviation of the entry from its row's
  mean over the features; `refMlp` — from those sums s: s / (s + ε), then three dense layers, a leaky rectifier
  (x where x ≥ 0, slope · x elsewhere) after the first two.
-/
import proofs.«171786_j4887672783552_1_alg».proof.Proof.Gen.ReferenceIdeal

noncomputable section

namespace Cert.RSpec

open Idealize.ShloMosaic Cert.ReferenceIdeal Cert.ReferenceIdeal.Facts₀

variable {F : FTy → Type} [FloatOps F]

/-- Each row's mean over the 2048 features, as a [4, 8192, 1] column. -/
def rowMean (x : FVec F S4x8192x2048 .f32) : FVec F S4x8192x1 .f32 :=
  Host.divf
    (broadcastInDim S4x8192x1 ![0, 1] bcast_S4x8192_S4x8192x1_0_1
      (Host.reduceAdd x (constant S_ .f32 0x00000000#32) reducesTo_S4x8192x2048_S4x8192_d2 h_S_))
    (broadcastInDim S4x8192x1 ![] bcast_S_S4x8192x1 (constant S_ .f32 0x45000000#32))

/-- The centred entries. -/
def centred (x : FVec F S4x8192x2048 .f32) : FVec F S4x8192x2048 .f32 :=
  subf x (broadcastInDim S4x8192x2048 ![0, 1, 2] bcast_S4x8192x1_S4x8192x2048_0_1_2 (rowMean x))

/-- Sum over the rows of the squared centred entries: [4, 2048]. -/
def refSs (x : FVec F S4x8192x2048 .f32) : FVec F S4x2048 .f32 :=
  Host.reduceAdd (mulf (centred x) (centred x)) (constant S_ .f32 0x00000000#32) reducesTo_S4x8192x2048_S4x2048_d1 h_S_

/-- The leaky rectifier as jax outlines it: compare with a zero splat, scale by the splat slope, select. -/
def lrelu (s : Shape) (hb : S_.BroadcastsInDim s (![] : Fin 0 → Fin s.rank)) (h : FVec F s .f32) (slope : FVec F S_ .f32) :
    FVec F s .f32 :=
  select (cmpf .oge h (broadcastInDim s ![] hb (constant S_ .f32 0x00000000#32))) h
    (mulf (broadcastInDim s ![] hb (id slope)) h)

/-- s / (s + ε). -/
def cov (s : FVec F S4x2048 .f32) : FVec F S4x2048 .f32 :=
  Host.divf s (addf s (broadcastInDim S4x2048 ![] bcast_S_S4x2048 (constant S_ .f32 0x358637BD#32)))

/-- First layer before its rectifier: cov · W1 + b1. -/
def pre1 (s : FVec F S4x2048 .f32) (w1 : FVec F S2048x2048 .f32) (b1 : FVec F S2048 .f32) : FVec F S4x2048 .f32 :=
  addf (Host.dotGeneral dot_S4x2048_S2048x2048_S4x2048_1_0_0_1_n_n none (cov s) w1)
    (broadcastInDim S4x2048 ![0, 1] bcast_S1x2048_S4x2048_0_1 (broadcastInDim S1x2048 ![1] bcast_S2048_S1x2048_1 b1))

/-- Second layer before its rectifier: h · W2 + b2. -/
def pre2 (h : FVec F S4x2048 .f32) (w2 : FVec F S2048x512 .f32) (b2 : FVec F S512 .f32) : FVec F S4x512 .f32 :=
  addf (Host.dotGeneral dot_S4x2048_S2048x512_S4x512_1_0_0_1_n_n none h w2)
    (broadcastInDim S4x512 ![0, 1] bcast_S1x512_S4x512_0_1 (broadcastInDim S1x512 ![1] bcast_S512_S1x512_1 b2))

/-- Third layer: h · W3 + b3. -/
def pre3 (h : FVec F S4x512 .f32) (w3 : FVec F S512x64 .f32) (b3 : FVec F S64 .f32) : FVec F S4x64 .f32 :=
  addf (Host.dotGeneral dot_S4x512_S512x64_S4x64_1_0_0_1_n_n none h w3)
    (broadcastInDim S4x64 ![0, 1] bcast_S1x64_S4x64_0_1 (broadcastInDim S1x64 ![1] bcast_S64_S1x64_1 b3))

/-- The whole tail of the reference from the sums of squares. -/
def refMlp (s : FVec F S4x2048 .f32) (w1 : FVec F S2048x2048 .f32) (b1 : FVec F S2048 .f32) (w2 : FVec F S2048x512 .f32)
    (b2 : FVec F S512 .f32) (w3 : FVec F S512x64 .f32) (b3 : FVec F S64 .f32) : FVec F S4x64 .f32 :=
  pre3
    (lrelu S4x512 bcast_S_S4x512
      (pre2 (lrelu S4x2048 bcast_S_S4x2048 (pre1 s w1 b1) (constant S_ .f32 0x3C23D70A#32)) w2 b2)
      (constant S_ .f32 0x3C23D70A#32))
    w3 b3

end Cert.RSpec

end
-- ==== Proof.RefRun.lean ====
import proofs.«171786_j4887672783552_1_alg».proof.Proof.RSpec
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Facts₀

variable {F : FTy → Type} [FloatOps F]

/-- @main's forty-three operations in order, the two calls of the leaky rectifier listed in place: each is seven
    operations over its call's buffers — the zero and its splat, the comparison of the operand with it, the slope
    converted to its own type and splat, the product of the slope with the operand, and the selection between
    the operand and that product. Before the first call: the row means, the centred entries, their squares summed
    over the rows, that sum over itself plus ε, and the first dense layer; between the calls the second dense layer;
    after them the third. -/
abbrev ops : List (HloOp τ sig (Elt F)) :=
  [ nullary main_cst (constant S_ .f32 0x00000000#32),
    binary main_arg0 main_cst main_v0 ((fun x v => Host.reduceAdd x v reducesTo_S4x8192x2048_S4x8192_d2 h_S_) : (⟨S4x8192x2048, .f32⟩ : BufTy).Contents (Elt F) → (⟨S_, .f32⟩ : BufTy).Contents (Elt F) → (⟨S4x8192, .f32⟩ : BufTy).Contents (Elt F)),
    unary main_v0 main_v1 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x45000000#32),
    unary main_cst_0 main_v2 (broadcastInDim S4x8192x1 ![] bcast_S_S4x8192x1 : (⟨S_, .f32⟩ : BufTy).Contents (Elt F) → (⟨S4x8192x1, .f32⟩ : BufTy).Contents (Elt F)),
    binary main_v1 main_v2 main_v3 (Host.divf : (⟨S4x8192x1, .f32⟩ : BufTy).Contents (Elt F) → (⟨S4x8192x1, .f32⟩ : BufTy).Contents (Elt F) → (⟨S4x8192x1, .f32⟩ : BufTy).Contents (Elt F)),
    unary main_v3 main_v4 (broadcastInDim S4x8192x2048 ![0, 1, 2] bcast_S4x8192x1_S4x8192x2048_0_1_2 : (⟨S4x8192x1, .f32⟩ : BufTy).Contents (Elt F) → (⟨S4x8192x2048, .f32⟩ : BufTy).Contents (Elt F)),
    binary main_arg0 main_v4 main_v5 (subf : (⟨S4x8192x2048, .f32⟩ : BufTy).Contents (Elt F) → (⟨S4x8192x2048, .f32⟩ : BufTy).Contents (Elt F) → (⟨S4x8192x2048, .f32⟩ : BufTy).Contents (Elt F)),
    binary main_v5 main_v5 main_v6 (mulf : (⟨S4x8192x2048, .f32⟩ : BufTy).Contents (Elt F) → (⟨S4x8192x2048, .f32⟩ : BufTy).Contents (Elt F) → (⟨S4x8192x2048, .f32⟩ : BufTy).Contents (Elt F)),
    nullary main_cst_1 (constant S_ .f32 0x00000000#32),
    binary main_v6 main_cst_1 main_v7 ((fun x v => Host.reduceAdd x v reducesTo_S4x8192x2048_S4x2048_d1 h_S_) : (⟨S4x8192x2048, .f32⟩ : BufTy).Contents (Elt F) → (⟨S_, .f32⟩ : BufTy).Contents (Elt F) → (⟨S4x2048, .f32⟩ : BufTy).Contents (Elt F)),
    nullary main_cst_2 (constant S_ .f32 0x358637BD#32),
    unary main_cst_2 main_v8 (broadcastInDim S4x2048 ![] bcast_S_S4x2048 : (⟨S_, .f32⟩ : BufTy).Contents (Elt F) → (⟨S4x2048, .f32⟩ : BufTy).Contents (Elt F)),
    binary main_v7 main_v8 main_v9 (addf : (⟨S4x2048, .f32⟩ : BufTy).Contents (Elt F) → (⟨S4x2048, .f32⟩ : BufTy).Contents (Elt F) → (⟨S4x2048, .f32⟩ : BufTy).Contents (Elt F)),
    binary main_v7 main_v9 main_v10 (Host.divf : (⟨S4x2048, .f32⟩ : BufTy).Contents (Elt F) → (⟨S4x2048, .f32⟩ : BufTy).Contents (Elt F) → (⟨S4x2048, .f32⟩ : BufTy).Contents (Elt F)),
    binary main_v10 main_arg1 main_v11 ((fun l r => Host.dotGeneral dot_S4x2048_S2048x2048_S4x2048_1_0_0_1_n_n none l r) : (⟨S4x2048, .f32⟩ : BufTy).Contents (Elt F) → (⟨S2048x2048, .f32⟩ : BufTy).Contents (Elt F) → (⟨S4x2048, .f32⟩ : BufTy).Contents (Elt F)),
    unary main_arg2 main_v12 (broadcastInDim S1x2048 ![1] bcast_S2048_S1x2048_1 : (⟨S2048, .f32⟩ : BufTy).Contents (Elt F) → (⟨S1x2048, .f32⟩ : BufTy).Contents (Elt F)),
    unary main_v12 main_v13 (broadcastInDim S4x2048 ![0, 1] bcast_S1x2048_S4x2048_0_1 : (⟨S1x2048, .f32⟩ : BufTy).Contents (Elt F) → (⟨S4x2048, .f32⟩ : BufTy).Contents (Elt F)),
    binary main_v11 main_v13 main_v14 (addf : (⟨S4x2048, .f32⟩ : BufTy).Contents (Elt F) → (⟨S4x2048, .f32⟩ : BufTy).Contents (Elt F) → (⟨S4x2048, .f32⟩ : BufTy).Contents (Elt F)),
    nullary main_cst_3 (constant S_ .f32 0x3C23D70A#32),
    TRef.nullary main_call0.cst (constant S_ .f32 0x00000000#32),
    TRef.unary main_call0.cst main_call0.v0 (broadcastInDim S4x2048 ![] bcast_S_S4x2048),
    TRef.binary (.of main_v14) main_call0.v0 main_call0.v1 (cmpf .oge),
    TRef.unary (.of main_cst_3) main_call0.v2 id,
    TRef.unary main_call0.v2 main_call0.v3 (broadcastInDim S4x2048 ![] bcast_S_S4x2048),
    TRef.binary main_call0.v3 (.of main_v14) main_call0.v4 mulf,
    TRef.ternary main_call0.v1 (.of main_v14) main_call0.v4 main_call0.call0.v0 select,
    binary main_v15 main_arg3 main_v16 ((fun l r => Host.dotGeneral dot_S4x2048_S2048x512_S4x512_1_0_0_1_n_n none l r) : (⟨S4x2048, .f32⟩ : BufTy).Contents (Elt F) → (⟨S2048x512, .f32⟩ : BufTy).Contents (Elt F) → (⟨S4x512, .f32⟩ : BufTy).Contents (Elt F)),
    unary main_arg4 main_v17 (broadcastInDim S1x512 ![1] bcast_S512_S1x512_1 : (⟨S512, .f32⟩ : BufTy).Contents (Elt F) → (⟨S1x512, .f32⟩ : BufTy).Contents (Elt F)),
    unary main_v17 main_v18 (broadcastInDim S4x512 ![0, 1] bcast_S1x512_S4x512_0_1 : (⟨S1x512, .f32⟩ : BufTy).Contents (Elt F) → (⟨S4x512, .f32⟩ : BufTy).Contents (Elt F)),
    binary main_v16 main_v18 main_v19 (addf : (⟨S4x512, .f32⟩ : BufTy).Contents (Elt F) → (⟨S4x512, .f32⟩ : BufTy).Contents (Elt F) → (⟨S4x512, .f32⟩ : BufTy).Contents (Elt F)),
    nullary main_cst_4 (constant S_ .f32 0x3C23D70A#32),
    TRef.nullary main_call1.cst (constant S_ .f32 0x00000000#32),
    TRef.unary main_call1.cst main_call1.v0 (broadcastInDim S4x512 ![] bcast_S_S4x512),
    TRef.binary (.of main_v19) main_call1.v0 main_call1.v1 (cmpf .oge),
    TRef.unary (.of main_cst_4) main_call1.v2 id,
    TRef.unary main_call1.v2 main_call1.v3 (broadcastInDim S4x512 ![] bcast_S_S4x512),
    TRef.binary main_call1.v3 (.of main_v19) main_call1.v4 mulf,
    TRef.ternary main_call1.v1 (.of main_v19) main_call1.v4 main_call1.call0.v0 select,
    binary main_v20 main_arg5 main_v21 ((fun l r => Host.dotGeneral dot_S4x512_S512x64_S4x64_1_0_0_1_n_n none l r) : (⟨S4x512, .f32⟩ : BufTy).Contents (Elt F) → (⟨S512x64, .f32⟩ : BufTy).Contents (Elt F) → (⟨S4x64, .f32⟩ : BufTy).Contents (Elt F)),
    unary main_arg6 main_v22 (broadcastInDim S1x64 ![1] bcast_S64_S1x64_1 : (⟨S64, .f32⟩ : BufTy).Contents (Elt F) → (⟨S1x64, .f32⟩ : BufTy).Contents (Elt F)),
    unary main_v22 main_v23 (broadcastInDim S4x64 ![0, 1] bcast_S1x64_S4x64_0_1 : (⟨S1x64, .f32⟩ : BufTy).Contents (Elt F) → (⟨S4x64, .f32⟩ : BufTy).Contents (Elt F)),
    binary main_v21 main_v23 main_v24 (addf : (⟨S4x64, .f32⟩ : BufTy).Contents (Elt F) → (⟨S4x64, .f32⟩ : BufTy).Contents (Elt F) → (⟨S4x64, .f32⟩ : BufTy).Contents (Elt F)) ]

set_option maxRecDepth 1024 in
/-- @main is that straight line: the rectifier's and the selection's definitions unfolded at their calls and the
    records at their fields, both sides are one chain of steps once sequencing is reassociated. -/
theorem main_eq (c : Dev nD) : main (F := F) c = seq ops := by
  simp only [main, fn_leaky_relu.body, fn_where.body, fn_leaky_relu_0.body, fn_where_1.body, seq, bind_assoc, pure_bind]

/-- No buffer of the signature is scoped. -/
theorem scopedRefs_eq : (Finset.univ.filter fun b : Ref sig .tc => b.isScoped) = ∅ := by decide
/-- Nor any semaphore: there is none. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., nullary_bufs_sub ..,
    unary_bufs_sub .., binary_bufs_sub .., binary_bufs_sub .., binary_bufs_sub .., unary_bufs_sub .., unary_bufs_sub ..,
    binary_bufs_sub .., nullary_bufs_sub ..,
    nullary_bufs_sub .., unary_bufs_sub .., binary_bufs_sub .., unary_bufs_sub .., unary_bufs_sub .., binary_bufs_sub ..,
    ternary_bufs_sub ..,
    binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., unary_bufs_sub .., unary_bufs_sub .., binary_bufs_sub ..⟩

/-- Every weakly fair execution of @main terminates, each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduceAdd in
/-- The fold read at the result buffer: each operation's value at its own buffer, every other buffer as it was;
    composed, that is the reference's function of the arguments' contents. -/
theorem out_eq (V : Valuation τ sig (Elt F)) :
    after ops V (main_v24 : DevRef τ sig)
      = Cert.RSpec.refMlp (Cert.RSpec.refSs (V (main_arg0 : DevRef τ sig))) (V (main_arg1 : DevRef τ sig))
          (V (main_arg2 : DevRef τ sig)) (V (main_arg3 : DevRef τ sig)) (V (main_arg4 : DevRef τ sig))
          (V (main_arg5 : DevRef τ sig)) (V (main_arg6 : DevRef τ sig)) := by
  after_results_simp
  rfl

/-! No operation writes an argument's buffer: the fold leaves each as it was. -/

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp

/-- Every weakly fair execution of the reference's @main terminates without a fault, its result array at the
    reference's function of the launch contents of the seven arguments, the arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v24)
        = Cert.RSpec.refMlp (Cert.RSpec.refSs (m ((c.tc : Thread nD τ).loc main_arg0)))
            (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  exact (θ_run defs _ _).mono
    (fun _ h c => ⟨(h c main_v24).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _)⟩)
    (run_main m ρ)

end Cert.ReferenceIdeal.RefRun

end
-- ==== Proof.SsRef.lean ====
import proofs.«171786_j4887672783552_1_alg».proof.Proof.RSpec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.SsRef

open Idealize.ShloMosaic Idealize.ShloMosaic.ValueIdx
open scoped BigOperators

/-! ## The two sums of the reference read as sums over one coordinate -/

/-- The [4, 8192, 2048] array with axis 1 removed is [4, 2048], with axis 2 removed [4, 8192]. -/
theorem red1 : Shape.Reduces ⟨3, ![4, 8192, 2048]⟩ [1] ⟨2, ![4, 2048]⟩ := by decide
theorem red2 : Shape.Reduces ⟨3, ![4, 8192, 2048]⟩ [2] ⟨2, ![4, 8192]⟩ := by decide

/-- The index (b, j) with the row r inserted on axis 1 is (b, r, j). -/
theorem lift1 (h : Shape.Reduces ⟨3, ![4, 8192, 2048]⟩ [1] ⟨2, ![4, 2048]⟩) (b : Fin 4) (j : Fin 2048) (r : Fin 8192) :
    h.lift (ix2 b j) r = ix3 b r j := by
  funext c
  match c with
  | ⟨0, _⟩ => exact Fin.ext rfl
  | ⟨1, _⟩ => exact Fin.ext rfl
  | ⟨2, _⟩ => exact Fin.ext rfl

/-- The index (b, r) with the feature d inserted on axis 2 is (b, r, d). -/
theorem lift2 (h : Shape.Reduces ⟨3, ![4, 8192, 2048]⟩ [2] ⟨2, ![4, 8192]⟩) (b : Fin 4) (r : Fin 8192) (d : Fin 2048) :
    h.lift (ix2 b r) d = ix3 b r d := by
  funext c
  match c with
  | ⟨0, _⟩ => exact Fin.ext rfl
  | ⟨1, _⟩ => exact Fin.ext rfl
  | ⟨2, _⟩ => exact Fin.ext rfl

/-- The host's sum over the rows at (b, j): the initial value plus the sum over r of the entries (b, r, j). -/
theorem hostSum1 (y : (⟨3, ![4, 8192, 2048]⟩ : Shape).Idx → EReal)
    (h' : Shape.ReducesTo ⟨3, ![4, 8192, 2048]⟩ [1] ⟨2, ![4, 2048]⟩) (init : EReal) (b : Fin 4) (j : Fin 2048) :
    Ideal.hostReduceAdd h' y init (ix2 b j) = init + ∑ r : Fin 8192, y (ix3 b r j) := by
  rw [Ideal.hostReduceAdd_single h' red1]
  exact congrArg (init + ·) (Finset.sum_congr rfl fun r _ => congrArg y (lift1 red1 b j r))

/-- The host's sum over the features at (b, r): the initial value plus the sum over d of the entries (b, r, d). -/
theorem hostSum2 (y : (⟨3, ![4, 8192, 2048]⟩ : Shape).Idx → EReal)
    (h' : Shape.ReducesTo ⟨3, ![4, 8192, 2048]⟩ [2] ⟨2, ![4, 8192]⟩) (init : EReal) (b : Fin 4) (r : Fin 8192) :
    Ideal.hostReduceAdd h' y init (ix2 b r) = init + ∑ d : Fin 2048, y (ix3 b r d) := by
  rw [Ideal.hostReduceAdd_single h' red2]
  exact congrArg (init + ·) (Finset.sum_congr rfl fun d _ => congrArg y (lift2 red2 b r d))

/-! ## The row mean and the centred entries at an index -/

/-- The mean of row (b, r): the sum of its 2048 entries (from the zero word) divided by the word 2048.0. -/
theorem rowMean_apply (x : FVec Ideal Cert.ReferenceIdeal.S4x8192x2048 .f32) (b : Fin 4) (r : Fin 8192) (u : Fin 1) :
    Cert.RSpec.rowMean (F := Ideal) x (ix3 b r u)
      = Ideal.div (Ideal.ofBits .f32 0x00000000#32 + ∑ d : Fin 2048, x (ix3 b r d)) (Ideal.ofBits .f32 0x45000000#32) := by
  unfold Cert.RSpec.rowMean
  rw [hostDivf_apply]
  rw [broadcastInDim_apply ![0, 1] _ _ (ix3 b r u) (ix2 b r) (fun a => by
    match a with
    | ⟨0, _⟩ => rfl
    | ⟨1, _⟩ => rfl)]
  rw [hostReduceAdd_apply, hostSum2]
  rfl

/-- The centred entry at (b, r, j): the entry minus its row's mean. -/
theorem centred_apply (x : FVec Ideal Cert.ReferenceIdeal.S4x8192x2048 .f32) (b : Fin 4) (r : Fin 8192) (j : Fin 2048) :
    Cert.RSpec.centred (F := Ideal) x (ix3 b r j)
      = x (ix3 b r j) - Ideal.div (Ideal.ofBits .f32 0x00000000#32 + ∑ d : Fin 2048, x (ix3 b r d))
          (Ideal.ofBits .f32 0x45000000#32) := by
  unfold Cert.RSpec.centred
  rw [subf_apply]
  rw [broadcastInDim_apply ![0, 1, 2] _ _ (ix3 b r j) (ix3 b r (0 : Fin 1)) (fun a => by
    match a with
    | ⟨0, _⟩ => rfl
    | ⟨1, _⟩ => rfl
    | ⟨2, _⟩ => rfl)]
  rw [rowMean_apply]

/-! ## The sums of squares at an index -/

/-- The reference's [4, 2048] array of sums of squares at (b, j): from the zero word, the sum over the 8192 rows of the
    square of the entry (b, r, j) less its row's mean. -/
theorem refSs_apply (x : FVec Ideal Cert.ReferenceIdeal.S4x8192x2048 .f32) (b : Fin 4) (j : Fin 2048) :
    Cert.RSpec.refSs (F := Ideal) x (ix2 b j)
      = Ideal.ofBits .f32 0x00000000#32 + ∑ r : Fin 8192,
          (x (ix3 b r j) - Ideal.div (Ideal.ofBits .f32 0x00000000#32 + ∑ d : Fin 2048, x (ix3 b r d)) (Ideal.ofBits .f32 0x45000000#32))
          * (x (ix3 b r j) - Ideal.div (Ideal.ofBits .f32 0x00000000#32 + ∑ d : Fin 2048, x (ix3 b r d)) (Ideal.ofBits .f32 0x45000000#32)) := by
  unfold Cert.RSpec.refSs
  rw [hostReduceAdd_apply, hostSum1]
  refine congrArg₂ (· + ·) rfl (Finset.sum_congr rfl fun r _ => ?_)
  rw [mulf_apply, centred_apply]

end Cert.SsRef

end
-- ==== Proof.SsMath.lean ====
import proofs.«171786_j4887672783552_1_alg».proof.Proof.KSpec
import proofs.«171786_j4887672783552_1_alg».proof.Proof.RSpec
import proofs.«171786_j4887672783552_1_alg».proof.Proof.SsRef
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Algebra.BigOperators.Intervals

noncomputable section

namespace Cert.SsMath

open Idealize.ShloMosaic Idealize.ShloMosaic.ValueIdx

open Cert.KernelIdeal Cert.KernelIdeal.Gen

/-- The sum over the features of row q of a tile. -/
theorem tile_rowsum (v3 : Vec Ideal S1x512x2048 .f32) (q : Fin 512) :
    multiReduction (F := Ideal) .add [2] S1x512 v3 0x00000000#32 Facts₀.reduces_S1x512x2048_S1x512 (.inl rfl) rfl
        (ix2 (0 : Fin 1) q)
      = ∑ d : Fin 2048, v3 (ix3 (0 : Fin 1) q d) := by
  refine (Ideal.multiReduction_add_single v3 _ _ _ _ _).trans ?_
  refine Finset.sum_congr rfl fun k _ => congrArg v3 (funext fun c => Fin.ext ?_)
  match c with
  | ⟨0, _⟩ => rfl
  | ⟨1, _⟩ => rfl
  | ⟨2, _⟩ => rfl

/-- The sum over the rows of column j of a tile. -/
theorem tile_colsum (w : Vec Ideal S1x512x2048 .f32) (j : Fin 2048) :
    multiReduction (F := Ideal) .add [1] S1x2048 w 0x00000000#32 Facts₀.reduces_S1x512x2048_S1x2048 (.inl rfl) rfl
        (ix2 (0 : Fin 1) j)
      = ∑ q : Fin 512, w (ix3 (0 : Fin 1) q j) := by
  refine (Ideal.multiReduction_add_single w _ _ _ _ _).trans ?_
  refine Finset.sum_congr rfl fun k _ => congrArg w (funext fun c => Fin.ext ?_)
  match c with
  | ⟨0, _⟩ => rfl
  | ⟨1, _⟩ => rfl
  | ⟨2, _⟩ => rfl

/-- The squared deviation of an entry from the mean of a row: (a - (s / 2048))², with s the row's sum. -/
def sqdev (a s : EReal) : EReal :=
  (a - Ideal.div s (Ideal.ofBits .f32 0x45000000#32)) * (a - Ideal.div s (Ideal.ofBits .f32 0x45000000#32))

/-- A [1, 512] array cast to [1, 512, 1] reads, at (0, q, 0), the operand at (0, q). -/
theorem cast_col (v : Vec Ideal S1x512 .f32) (q : Fin 512) :
    shapeCast S1x512x1 v Facts₀.shapeCasts_S1x512_S1x512x1 (ix3 (0 : Fin 1) q (0 : Fin 1)) = v (ix2 (0 : Fin 1) q) :=
  shapeCast_apply v _ _ _ (by
    rw [Shape.rowMajor_val_three, Shape.rowMajor_val_two]
    show 0 * 512 + q.val = (0 * 512 + q.val) * 1 + 0
    omega)

/-- A [1, 512, 1] column broadcast over the 2048 features reads, at (0, q, j), the column at (0, q, 0). -/
theorem bcast_col (v : Vec Ideal S1x512x1 .f32) (q : Fin 512) (j : Fin 2048) :
    broadcastTo S1x512x2048 v Facts₀.broadcasts_S1x512x1_S1x512x2048 (ix3 (0 : Fin 1) q j)
      = v (ix3 (0 : Fin 1) q (0 : Fin 1)) := by
  refine broadcastTo_apply v _ (ix3 (0 : Fin 1) q j) (ix3 (0 : Fin 1) q (0 : Fin 1)) fun ax => ?_
  match ax with
  | ⟨0, _⟩ => rfl
  | ⟨1, _⟩ => rfl
  | ⟨2, _⟩ => rfl

/-- One tile's step: at feature j the accumulator gains the sum over the tile's 512 rows of the squared deviations. -/
theorem pay2_apply (v3 : Vec Ideal S1x512x2048 .f32) (v10 : Vec Ideal S1x1x2048 .f32) (j : Fin 2048) :
    k0_pay2 (F := Ideal) v3 v10 (ix3 (0 : Fin 1) (0 : Fin 1) j)
      = v10 (ix3 (0 : Fin 1) (0 : Fin 1) j)
        + ∑ q : Fin 512, sqdev (v3 (ix3 (0 : Fin 1) q j)) (∑ d : Fin 2048, v3 (ix3 (0 : Fin 1) q d)) := by
  unfold k0_pay2
  dsimp only
  rw [addf_apply, shapeCast_self, shapeCast_ab_1ab_apply, tile_colsum]
  refine congrArg (v10 (ix3 (0 : Fin 1) (0 : Fin 1) j) + ·) (Finset.sum_congr rfl fun q _ => ?_)
  rw [mulf_apply, subf_apply, bcast_col, divf_apply, cast_col, tile_rowsum, broadcast_apply]
  rfl

open Cert.KSpec

/-- The reset value is zero everywhere. -/
theorem pay1_apply (j : Fin 2048) : k0_pay1 (F := Ideal) (ix3 (0 : Fin 1) (0 : Fin 1) j) = 0 := by
  unfold k0_pay1
  exact Ideal.ofBits_zero_f32

/-- Tile 16 b + n holds rows 512 n … 512 n + 511 of batch b. -/
theorem tile_at (x : FVec Ideal S4x8192x2048 .f32) (b : Fin 4) (n : ℕ) (hn : n < 16) (t : Fin 64)
    (ht : t.val = 16 * b.val + n) (q : Fin 512) (d : Fin 2048) :
    tile x t (ix3 (0 : Fin 1) q d) = x (ix3 b (⟨512 * n + q.val, by have := q.isLt; omega⟩ : Fin 8192) d) := by
  unfold tile
  refine congrArg x (funext fun c => Fin.ext ?_)
  have hb := b.isLt
  match c with
  | ⟨0, _⟩ => show t.val / 16 = b.val; omega
  | ⟨1, _⟩ => show 512 * (t.val % 16) + q.val = 512 * n + q.val; omega
  | ⟨2, _⟩ => rfl

/-- At the first tile of a batch the accumulator is reset and then stepped. -/
theorem accAt_reset (x : FVec Ideal S4x8192x2048 .f32) : ∀ (m : ℕ) (h : m < 64), m % 16 = 0 →
    accAt x m h = k0_pay2 (tile x ⟨m, h⟩) (k0_pay1 (F := Ideal))
  | 0, h, _ => rfl
  | m + 1, h, hm => by rw [accAt, if_pos hm]

/-- At every other tile it is stepped from its value after the tile before. -/
theorem accAt_step (x : FVec Ideal S4x8192x2048 .f32) (m : ℕ) (h : m + 1 < 64) (hm : ¬(m + 1) % 16 = 0) :
    accAt x (m + 1) h = k0_pay2 (tile x ⟨m + 1, h⟩) (accAt x m (Nat.lt_of_succ_lt h)) := by
  rw [accAt, if_neg hm]

/-- Row r of batch b at feature j: the squared deviation of the entry from its row's mean; zero past the last row. -/
def term (x : FVec Ideal S4x8192x2048 .f32) (b : Fin 4) (j : Fin 2048) (r : ℕ) : EReal :=
  if h : r < 8192 then sqdev (x (ix3 b (⟨r, h⟩ : Fin 8192) j)) (∑ d : Fin 2048, x (ix3 b (⟨r, h⟩ : Fin 8192) d)) else 0

/-- The 512 terms tile 16 b + n adds are rows 512 n … 512 n + 511 of batch b. -/
theorem tile_sum (x : FVec Ideal S4x8192x2048 .f32) (b : Fin 4) (j : Fin 2048) (n : ℕ) (hn : n < 16) (t : Fin 64)
    (ht : t.val = 16 * b.val + n) :
    ∑ q : Fin 512, sqdev (tile x t (ix3 (0 : Fin 1) q j)) (∑ d : Fin 2048, tile x t (ix3 (0 : Fin 1) q d))
      = ∑ q ∈ Finset.range 512, term x b j (512 * n + q) := by
  rw [← Fin.sum_univ_eq_sum_range (fun q => term x b j (512 * n + q)) 512]
  refine Finset.sum_congr rfl fun q _ => ?_
  have hq : 512 * n + q.val < 8192 := by have := q.isLt; omega
  unfold term
  rw [dif_pos hq, tile_at x b n hn t ht q j]
  exact congrArg _ (Finset.sum_congr rfl fun d _ => tile_at x b n hn t ht q d)

/-- After tile n of batch b the accumulator at feature j is the sum of the first 512 (n + 1) rows' terms. -/
theorem accAt_closed (x : FVec Ideal S4x8192x2048 .f32) (b : Fin 4) (j : Fin 2048) :
    ∀ (n : ℕ) (hn : n < 16) (h : 16 * b.val + n < 64),
      accAt x (16 * b.val + n) h (ix3 (0 : Fin 1) (0 : Fin 1) j)
        = ∑ r ∈ Finset.range (512 * (n + 1)), term x b j r
  | 0, hn, h => by
    rw [accAt_reset x _ h (by omega), pay2_apply, pay1_apply, zero_add, tile_sum x b j 0 hn ⟨_, h⟩ rfl]
    refine Finset.sum_congr rfl fun q _ => ?_
    rw [Nat.mul_zero, Nat.zero_add]
  | n + 1, hn, h => by
    have ih := accAt_closed x b j n (by omega) (by omega)
    have e : accAt x (16 * b.val + (n + 1)) h
        = k0_pay2 (tile x ⟨16 * b.val + n + 1, h⟩) (accAt x (16 * b.val + n) (Nat.lt_of_succ_lt h)) :=
      accAt_step x (16 * b.val + n) h (by omega)
    rw [e, pay2_apply, ih, tile_sum x b j (n + 1) hn ⟨16 * b.val + n + 1, h⟩ rfl,
      show 512 * (n + 1 + 1) = 512 * (n + 1) + 512 from by omega, Finset.sum_range_add]

/-- The [4, 1, 2048] result viewed as [4, 2048] reads, at (b, j), the entry (b, 0, j). -/
theorem cast_out (v : Vec Ideal S4x1x2048 .f32) (b : Fin 4) (j : Fin 2048) :
    shapeCast S4x2048 v Facts₀.shapeCasts_S4x1x2048_S4x2048 (ix2 b j) = v (ix3 b (0 : Fin 1) j) :=
  shapeCast_apply v _ _ _ (by
    rw [Shape.rowMajor_val_three, Shape.rowMajor_val_two]
    show (b.val * 1 + 0) * 2048 + j.val = b.val * 2048 + j.val
    omega)

/-- Row b of the kernel's result at feature j is the sum over all 8192 rows of batch b of the squared deviations. -/
theorem kerSs_apply (x : FVec Ideal S4x8192x2048 .f32) (b : Fin 4) (j : Fin 2048) :
    kerSs x (ix3 b (0 : Fin 1) j)
      = ∑ r : Fin 8192, sqdev (x (ix3 b r j)) (∑ d : Fin 2048, x (ix3 b r d)) := by
  have hb := b.isLt
  show accAt x (16 * b.val + 15) _ (ix3 (0 : Fin 1) (0 : Fin 1) j) = _
  rw [accAt_closed x b j 15 (by omega)]
  show ∑ r ∈ Finset.range 8192, term x b j r = _
  rw [← Fin.sum_univ_eq_sum_range (term x b j) 8192]
  refine Finset.sum_congr rfl fun r _ => ?_
  unfold term
  rw [dif_pos r.isLt]

/-- Over the extended reals the kernel's tile-by-tile accumulation of the squared centred entries, reshaped from
    [4, 1, 2048] to [4, 2048], is the reference's one sum over all 8192 rows. -/
theorem ss_eq (x : FVec Ideal Cert.KernelIdeal.S4x8192x2048 .f32) :
    (shapeCast Cert.KernelIdeal.S4x2048 (Cert.KSpec.kerSs (F := Ideal) x)
        Cert.KernelIdeal.Facts₀.shapeCasts_S4x1x2048_S4x2048 : FVec Ideal Cert.ReferenceIdeal.S4x2048 .f32)
      = Cert.RSpec.refSs (F := Ideal) x := by
  funext i
  obtain ⟨b, j, rfl⟩ : ∃ (b : Fin 4) (j : Fin 2048), i = ix2 b j := ⟨i 0, i 1, eq_ix2 i⟩
  rw [Cert.SsRef.refSs_apply, Ideal.ofBits_zero_f32, zero_add]
  refine (cast_out _ b j).trans ((kerSs_apply x b j).trans ?_)
  refine Finset.sum_congr rfl fun r _ => ?_
  rw [zero_add]
  rfl

end Cert.SsMath

end
-- ==== Proof.MlpMath.lean ====
import proofs.«171786_j4887672783552_1_alg».proof.Proof.KSpec
import proofs.«171786_j4887672783552_1_alg».proof.Proof.RSpec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.MlpMath

open Idealize.ShloMosaic Idealize.ShloMosaic.ValueIdx

/-! ## One bias row laid along every row of a matrix -/

/-- A vector of `n` entries, cast to one row (twice, the second cast to the same shape) and broadcast down `m` rows,
    is the vector broadcast along axis 1 to one row and that row broadcast down the rows: both read the vector at the
    column. -/
theorem bias_eq {α : Type} {m n : ℕ} (b : (⟨1, ![n]⟩ : Shape).Idx → α)
    (h1 : (⟨1, ![n]⟩ : Shape).ShapeCasts ⟨2, ![1, n]⟩) (h2 : (⟨2, ![1, n]⟩ : Shape).ShapeCasts ⟨2, ![1, n]⟩)
    (hb : (⟨2, ![1, n]⟩ : Shape).Broadcasts ⟨2, ![m, n]⟩)
    (hd : (⟨1, ![n]⟩ : Shape).BroadcastsInDim ⟨2, ![1, n]⟩ ![1])
    (hbc : (⟨2, ![1, n]⟩ : Shape).BroadcastsInDim ⟨2, ![m, n]⟩ ![0, 1]) :
    broadcastTo ⟨2, ![m, n]⟩ (shapeCast ⟨2, ![1, n]⟩ (shapeCast ⟨2, ![1, n]⟩ b h1) h2) hb
      = broadcastInDim ⟨2, ![m, n]⟩ ![0, 1] hbc (broadcastInDim ⟨2, ![1, n]⟩ ![1] hd b) := by
  rw [shapeCast_self]
  funext j
  obtain ⟨p, q, rfl⟩ : ∃ (p : Fin m) (q : Fin n), j = ix2 p q := ⟨j 0, j 1, eq_ix2 j⟩
  rw [broadcastTo_1b_ab_apply, shapeCast_a_1a_apply, broadcastInDim_oneRow_apply]
  refine (broadcastInDim_apply ![1] hd b (ix2 (0 : Fin 1) q) (ix1 q) ?_).symm
  intro a
  match a with
  | ⟨0, _⟩ =>
    show q.val = if n = 1 then 0 else q.val
    split
    · have := q.isLt; omega
    · rfl

/-! ## The matrix product -/

/-- At the extended reals a change of format is the identity, and a product accumulated into a zero splat is the
    host's product: the same sum over the contraction index. -/
theorem matmul_trunc_eq {sl sr so : Shape} (d : DotDims sl sr so) (a : FVec Ideal sl .f32) (w : FVec Ideal sr .f32)
    (h1 h2 : FTy.bits .bf16 < FTy.bits .f32) :
    matmul d none (truncf .bf16 a h1) (truncf .bf16 w h2) (constant so .f32 0x00000000#32)
      = Host.dotGeneral d none a w := by
  funext j
  show FloatOps.matmul d none (truncf .bf16 a h1) (truncf .bf16 w h2) (constant so .f32 0x00000000#32) j
    = FloatOps.dotGeneral d none _ a w j
  rw [Ideal.matmul_constant_zero_apply, Ideal.dotGeneral_apply]
  rfl

/-! ## The leaky rectifier -/

/-- On one extended real: above zero both give `y`, below zero both give `c · y`, and at zero the one gives
    `c · 0 = 0` and the other `y = 0`. -/
theorem lrelu_point (z c y : EReal) (hz : z = 0) :
    Scalar.select (Ideal.cmp .ogt y z) y (c * y) = Scalar.select (Ideal.cmp .oge y z) y (c * y) := by
  subst hz
  simp only [Scalar.select, Ideal.cmp]
  by_cases h0 : (0 : EReal) < y
  · simp [h0, h0.le]
  · by_cases h1 : (0 : EReal) ≤ y
    · have hy : y = 0 := le_antisymm (not_lt.mp h0) h1
      subst hy; simp
    · simp [h0, h1]

/-- The rectifier over a whole array: the kernel's (strictly above zero, else slope times) is the reference's (at or above
    zero, else slope times), the slope the same word on both sides. -/
theorem lrelu_eq {s : Shape} (hb : Cert.ReferenceIdeal.S_.BroadcastsInDim s (![] : Fin 0 → Fin s.rank)) (c : BitVec 32)
    (h : FVec Ideal s .f32) :
    select (cmpf .ogt h (broadcast s (Scalar.ofBits (F := Ideal) .f32 0x00000000#32))) h
        (mulf (broadcast s (Scalar.ofBits (F := Ideal) .f32 c)) h)
      = Cert.RSpec.lrelu s hb h (constant Cert.ReferenceIdeal.S_ .f32 c) := by
  unfold Cert.RSpec.lrelu
  rw [id, broadcastInDim_constant, broadcastInDim_constant]
  funext i
  exact lrelu_point _ _ (h i) Ideal.ofBits_zero_f32

/-! ## The ratio s / (s + ε) -/

/-- The kernel's ratio (on a same-shape cast of `s`, ε a splat scalar) is the reference's (ε a rank-0 constant
    broadcast): the same word ε, the same division at each element. -/
theorem cov_eq (s : FVec Ideal Cert.KernelIdeal.S4x2048 .f32)
    (hc : Cert.KernelIdeal.S4x2048.ShapeCasts Cert.KernelIdeal.S4x2048) :
    divf (shapeCast Cert.KernelIdeal.S4x2048 s hc)
        (addf (shapeCast Cert.KernelIdeal.S4x2048 s hc)
          (broadcast Cert.KernelIdeal.S4x2048 (Scalar.ofBits (F := Ideal) .f32 0x358637BD#32)))
      = Cert.RSpec.cov s := by
  rw [shapeCast_self]
  unfold Cert.RSpec.cov
  rw [broadcastInDim_constant]
  rfl

/-! ## One dense layer before its rectifier -/

/-- Product plus bias row: the kernel's layer is the reference's once the two records of dimension numbers are one. -/
theorem layer_eq {m k n : ℕ} (dK dR : DotDims ⟨2, ![m, k]⟩ ⟨2, ![k, n]⟩ ⟨2, ![m, n]⟩) (hd : dK = dR)
    (a : FVec Ideal ⟨2, ![m, k]⟩ .f32) (w : FVec Ideal ⟨2, ![k, n]⟩ .f32) (b : FVec Ideal ⟨1, ![n]⟩ .f32)
    (ht1 ht2 : FTy.bits .bf16 < FTy.bits .f32)
    (h1 : (⟨1, ![n]⟩ : Shape).ShapeCasts ⟨2, ![1, n]⟩) (h2 : (⟨2, ![1, n]⟩ : Shape).ShapeCasts ⟨2, ![1, n]⟩)
    (hb : (⟨2, ![1, n]⟩ : Shape).Broadcasts ⟨2, ![m, n]⟩)
    (hd' : (⟨1, ![n]⟩ : Shape).BroadcastsInDim ⟨2, ![1, n]⟩ ![1])
    (hbc : (⟨2, ![1, n]⟩ : Shape).BroadcastsInDim ⟨2, ![m, n]⟩ ![0, 1]) :
    addf (matmul dK none (truncf .bf16 a ht1) (truncf .bf16 w ht2) (constant ⟨2, ![m, n]⟩ .f32 0x00000000#32))
        (broadcastTo ⟨2, ![m, n]⟩ (shapeCast ⟨2, ![1, n]⟩ (shapeCast ⟨2, ![1, n]⟩ b h1) h2) hb)
      = addf (Host.dotGeneral dR none a w)
          (broadcastInDim ⟨2, ![m, n]⟩ ![0, 1] hbc (broadcastInDim ⟨2, ![1, n]⟩ ![1] hd' b)) := by
  subst hd
  rw [matmul_trunc_eq, bias_eq b h1 h2 hb hd' hbc]

/-- The two programs' records of dimension numbers carry the same data. -/
theorem dot1_eq : Cert.KernelIdeal.dot_S4x2048_S2048x2048_S4x2048_1_0_0_1_n_n
    = Cert.ReferenceIdeal.dot_S4x2048_S2048x2048_S4x2048_1_0_0_1_n_n := rfl
theorem dot2_eq : Cert.KernelIdeal.dot_S4x2048_S2048x512_S4x512_1_0_0_1_n_n
    = Cert.ReferenceIdeal.dot_S4x2048_S2048x512_S4x512_1_0_0_1_n_n := rfl
theorem dot3_eq : Cert.KernelIdeal.dot_S4x512_S512x64_S4x64_1_0_0_1_n_n
    = Cert.ReferenceIdeal.dot_S4x512_S512x64_S4x64_1_0_0_1_n_n := rfl

/-- Over the extended reals the kernel's second region and the reference's tail are one function of the sums of
    squares, the weights and the biases. -/
theorem mlp_eq (s : FVec Ideal Cert.KernelIdeal.S4x2048 .f32) (w1 : FVec Ideal Cert.KernelIdeal.S2048x2048 .f32)
    (b1 : FVec Ideal Cert.KernelIdeal.S2048 .f32) (w2 : FVec Ideal Cert.KernelIdeal.S2048x512 .f32)
    (b2 : FVec Ideal Cert.KernelIdeal.S512 .f32) (w3 : FVec Ideal Cert.KernelIdeal.S512x64 .f32)
    (b3 : FVec Ideal Cert.KernelIdeal.S64 .f32) :
    (Cert.KSpec.kerMlp (F := Ideal) s w1 b1 w2 b2 w3 b3 : FVec Ideal Cert.ReferenceIdeal.S4x64 .f32)
      = Cert.RSpec.refMlp (F := Ideal) s w1 b1 w2 b2 w3 b3 := by
  unfold Cert.KSpec.kerMlp Cert.KernelIdeal.Gen.k1_pay1 Cert.KernelIdeal.Gen.k1_pay2 Cert.KernelIdeal.Gen.k1_pay3
  unfold Cert.RSpec.refMlp Cert.RSpec.pre3 Cert.RSpec.pre2 Cert.RSpec.pre1
  dsimp only
  rw [cov_eq s]
  rw [layer_eq (m := 4) (k := 2048) (n := 2048) _ _ dot1_eq (Cert.RSpec.cov s) w1 b1 _ _ _ _ _
    Cert.ReferenceIdeal.Gen.bcast_S2048_S1x2048_1 Cert.ReferenceIdeal.Gen.bcast_S1x2048_S4x2048_0_1]
  rw [lrelu_eq Cert.ReferenceIdeal.Gen.bcast_S_S4x2048 0x3C23D70A#32]
  rw [layer_eq (m := 4) (k := 2048) (n := 512) _ _ dot2_eq _ w2 b2 _ _ _ _ _
    Cert.ReferenceIdeal.Gen.bcast_S512_S1x512_1 Cert.ReferenceIdeal.Gen.bcast_S1x512_S4x512_0_1]
  rw [lrelu_eq Cert.ReferenceIdeal.Gen.bcast_S_S4x512 0x3C23D70A#32]
  rw [layer_eq (m := 4) (k := 512) (n := 64) _ _ dot3_eq _ w3 b3 _ _ _ _ _
    Cert.ReferenceIdeal.Gen.bcast_S64_S1x64_1 Cert.ReferenceIdeal.Gen.bcast_S1x64_S4x64_0_1]

end Cert.MlpMath

end
-- ==== Proof.lean ====
/-
  A two-stage program against its plain-array reference, over the extended reals.

  Stage one: for every batch b and feature j, the sum over the 8192 rows r of (x[b, r, j] − mean_d x[b, r, d])².
  The kernel forms it 512 rows at a time, resetting an accumulator at the first tile of a batch and adding one
  tile's column sums per grid point; the reference forms the whole sum at once. Addition of extended reals is
  associative and commutative with unit 0, so the sixteen partial sums added in order are the one sum.

  Stage two: s ↦ s / (s + ε), then three dense layers with a leaky rectifier after the first two. The kernel
  rounds the matrix operands to a narrower format (the identity over the extended reals) and multiplies into a
  zero accumulator; the reference contracts directly: the same finite sum of products. The kernel's rectifier
  tests x > 0 and the reference's x ≥ 0: they differ only at x = 0, where both branches give 0.

  The three frames are the generated ones (the reference's is its run with the result dropped); no rewrite
  was applied when the kernel was idealised, so that conjunct is trivial.
-/
import proofs.«171786_j4887672783552_1_alg».proof.Defs
import proofs.«171786_j4887672783552_1_alg».proof.Proof.Gen.Kernel
import proofs.«171786_j4887672783552_1_alg».proof.Proof.Gen.Kernel.Frame
import proofs.«171786_j4887672783552_1_alg».proof.Proof.Gen.KernelIdeal
import proofs.«171786_j4887672783552_1_alg».proof.Proof.Gen.KernelIdeal.Frame
import proofs.«171786_j4887672783552_1_alg».proof.Proof.Gen.ReferenceIdeal
import proofs.«171786_j4887672783552_1_alg».proof.Proof.Gen.Pre_finite_inputs
import proofs.«171786_j4887672783552_1_alg».proof.Proof.KValue
import proofs.«171786_j4887672783552_1_alg».proof.Proof.RefRun
import proofs.«171786_j4887672783552_1_alg».proof.Proof.SsMath
import proofs.«171786_j4887672783552_1_alg».proof.Proof.MlpMath
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end at one function of the arguments: the kernel's two regions composed, which stage by stage
    is the reference's. -/
theorem algebraic : Cert.algebraic_KernelIdeal_ReferenceIdeal := by
  intro m ρ m' ρ' _ hagree
  refine ⟨fun c => Cert.KernelIdeal.KValue.result (F := Ideal) m c, Cert.KernelIdeal.KValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1,
    (hagree c).2.2.2.2.2.1, (hagree c).2.2.2.2.2.2]
  unfold Cert.KernelIdeal.KValue.result
  rw [← Cert.SsMath.ss_eq]
  exact (Cert.MlpMath.mlp_eq _ _ _ _ _ _ _).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
